-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x3x1024x1024 : Shape := ⟨4, ![16, 3, 1024, 1024]⟩
abbrev S16 : Shape := ⟨1, ![16]⟩
abbrev S16x3 : Shape := ⟨2, ![16, 3]⟩
abbrev S_ : Shape := ⟨0, ![]⟩

class Facts : Prop where
  bcast_S_S16x3x1024x1024 : S_.BroadcastsInDim S16x3x1024x1024 (![] : Fin 0 → Fin S16x3x1024x1024.rank)
  reducesTo_S16x3x1024x1024_S_d0_1_2_3 : S16x3x1024x1024.ReducesTo [0, 1, 2, 3] S_
  h_S_ : 0 < S_.numel
  bcast_S_S16x3 : S_.BroadcastsInDim S16x3 (![] : Fin 0 → Fin S16x3.rank)
  reducesTo_S16x3_S_d0_1 : S16x3.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg1 : IVec S16 32) (main_v13 : IVec S_ 1) (main_v15 : IVec S16 1) (main_c_5 : IVec S_ 1) : IVec S_ 1 :=
  let main_v16 : IVec S_ 1 := (fun x v => Host.reduce IntOp.andi x v reducesTo_S16_S_d0 h_S_) main_v15 main_c_5
  let main_v17 : IVec S_ 1 := andi main_v13 main_v16
  let main_c_6 : IVec S_ 32 := constantI S_ 32 16#32
  let main_v18 : IVec S16 32 := broadcastInDim S16 ![] bcast_S_S16 main_c_6
  let main_v19 : IVec S16 1 := cmpi .slt main_arg1 main_v18
  let main_c_7 : IVec S_ 1 := constantI S_ 1 1#1
  let main_v20 : IVec S_ 1 := (fun x v => Host.reduce IntOp.andi x v reducesTo_S16_S_d0 h_S_) main_v19 main_c_7
  let main_v21 : IVec S_ 1 := andi main_v17 main_v20
  main_v21

def fn {F : FTy → Type} [FloatOps F] (main_arg0 : FVec F S16x3x1024x1024 .f32) (main_arg1 : IVec S16 32) (main_arg2 : FVec F S16x3 .f32) (main_arg3 : FVec F S16x3 .f32) : IVec S_ 1 :=
  let main_v0 : FVec F S16x3x1024x1024 .f32 := Host.absf main_arg0
  let main_cst : FVec F S_ .f32 := constant S_ .f32 0x7F800000#32
  let main_v1 : FVec F S16x3x1024x1024 .f32 := broadcastInDim S16x3x1024x1024 ![] bcast_S_S16x3x1024x1024 main_cst
  let main_v2 : IVec S16x3x1024x1024 1 := cmpf .olt main_v0 main_v1
  let main_c : IVec S_ 1 := constantI S_ 1 1#1
  let main_v3 : IVec S_ 1 := (fun x v => Host.reduce IntOp.andi x v reducesTo_S16x3x1024x1024_S_d0_1_2_3 h_S_) main_v2 main_c
  let main_v4 : FVec F S16x3 .f32 := Host.absf main_arg2
  let main_cst_0 : FVec F S_ .f32 := constant S_ .f32 0x7F800000#32
  let main_v5 : FVec F S16x3 .f32 := broadcastInDim S16x3 ![] bcast_S_S16x3 main_cst_0
  let main_v6 : IVec S16x3 1 := cmpf .olt main_v4 main_v5
  let main_c_1 : IVec S_ 1 := constantI S_ 1 1#1
  let main_v7 : IVec S_ 1 := (fun x v => Host.reduce IntOp.andi x v reducesTo_S16x3_S_d0_1 h_S_) main_v6 main_c_1
  let main_v8 : IVec S_ 1 := andi main_v3 main_v7
  let main_v9 : FVec F S16x3 .f32 := Host.absf main_arg3
  let main_cst_2 : FVec F S_ .f32 := constant S_ .f32 0x7F800000#32
  let main_v10 : FVec F S16x3 .f32 := broadcastInDim S16x3 ![] bcast_S_S16x3 main_cst_2
  let main_v11 : IVec S16x3 1 := cmpf .olt main_v9 main_v10
  let main_c_3 : IVec S_ 1 := constantI S_ 1 1#1
  let main_v12 : IVec S_ 1 := (fun x v => Host.reduce IntOp.andi x v reducesTo_S16x3_S_d0_1 h_S_) main_v11 main_c_3
  let main_v13 : IVec S_ 1 := andi main_v8 main_v12
  let main_c_4 : IVec S_ 32 := constantI S_ 32 0#32
  let main_v14 : IVec S16 32 := broadcastInDim S16 ![] bcast_S_S16 main_c_4
  let main_v15 : IVec S16 1 := cmpi .sge main_arg1 main_v14
  let main_c_5 : IVec S_ 1 := constantI S_ 1 1#1
  fn_part1 (F := F) main_arg1 main_v13 main_v15 main_c_5
-- ==== Kernel.lean ====
abbrev S16x3x1024x1024 : Shape := ⟨4, ![16, 3, 1024, 1024]⟩
abbrev S16 : Shape := ⟨1, ![16]⟩
abbrev S16x3 : Shape := ⟨2, ![16, 3]⟩
abbrev S_ : Shape := ⟨0, ![]⟩
abbrev S16x1 : Shape := ⟨2, ![16, 1]⟩
abbrev S16x3x1x1 : Shape := ⟨4, ![16, 3, 1, 1]⟩
abbrev S1x3x512x1024 : Shape := ⟨4, ![1, 3, 512, 1024]⟩
abbrev S1x3x1x1 : Shape := ⟨4, ![1, 3, 1, 1]⟩
abbrev S3x512x1024 : Shape := ⟨3, ![3, 512, 1024]⟩
abbrev S3x1x1 : Shape := ⟨3, ![3, 1, 1]⟩

abbrev nBuf : Space → Nat
  | .hbm => 33
  | .vmem => 8
  | .smem => 0
  | _ => 0

abbrev bufTy : (tb : Table) → Fin (tcTables nBuf tb) → BufTy
  | .hbm, ⟨0, _⟩ => ⟨S16x3x1024x1024, .f32⟩
  | .hbm, ⟨1, _⟩ => ⟨S16, .i32⟩
  | .hbm, ⟨2, _⟩ => ⟨S16x3, .f32⟩
  | .hbm, ⟨3, _⟩ => ⟨S16x3, .f32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S16, .i32⟩
  | .hbm, ⟨8, _⟩ => ⟨S16, .i32⟩
  | .hbm, ⟨9, _⟩ => ⟨S_, .i32⟩
  | .hbm, ⟨10, _⟩ => ⟨S16, .i32⟩
  | .hbm, ⟨11, _⟩ => ⟨S16, .i32⟩
  | .hbm, ⟨12, _⟩ => ⟨S_, .i32⟩
  | .hbm, ⟨13, _⟩ => ⟨S16, .i32⟩
  | .hbm, ⟨14, _⟩ => ⟨S16, .i1⟩
  | .hbm, ⟨15, _⟩ => ⟨S_, .i32⟩
  | .hbm, ⟨16, _⟩ => ⟨S16, .i32⟩
  | .hbm, ⟨17, _⟩ => ⟨S16, .i32⟩
  | .hbm, ⟨18, _⟩ => ⟨S16, .i32⟩
  | .hbm, ⟨19, _⟩ => ⟨S16x1, .i32⟩
  | .hbm, ⟨20, _⟩ => ⟨S16x3, .f32⟩
  | .hbm, ⟨21, _⟩ => ⟨S16x3x1x1, .f32⟩
  | .hbm, ⟨22, _⟩ => ⟨S_, .i32⟩
  | .hbm, ⟨23, _⟩ => ⟨S16, .i32⟩
  | .hbm, ⟨24, _⟩ => ⟨S16, .i1⟩
  | .hbm, ⟨25, _⟩ => ⟨S_, .i32⟩
  | .hbm, ⟨26, _⟩ => ⟨S16, .i32⟩
  | .hbm, ⟨27, _⟩ => ⟨S16, .i32⟩
  | .hbm, ⟨28, _⟩ => ⟨S16, .i32⟩
  | .hbm, ⟨29, _⟩ => ⟨S16x1, .i32⟩
  | .hbm, ⟨30, _⟩ => ⟨S16x3, .f32⟩
  | .hbm, ⟨31, _⟩ => ⟨S16x3x1x1, .f32⟩
  | .hbm, ⟨32, _⟩ => ⟨S16x3x1024x1024, .f32⟩
  | .local _ .vmem, ⟨0, _⟩ => ⟨S1x3x512x1024, .f32⟩
  | .local _ .vmem, ⟨1, _⟩ => ⟨S1x3x512x1024, .f32⟩
  | .local _ .vmem, ⟨2, _⟩ => ⟨S1x3x1x1, .f32⟩
  | .local _ .vmem, ⟨3, _⟩ => ⟨S1x3x1x1, .f32⟩
  | .local _ .vmem, ⟨4, _⟩ => ⟨S1x3x1x1, .f32⟩
  | .local _ .vmem, ⟨5, _⟩ => ⟨S1x3x1x1, .f32⟩
  | .local _ .vmem, ⟨6, _⟩ => ⟨S1x3x512x1024, .f32⟩
  | .local _ .vmem, ⟨7, _⟩ => ⟨S1x3x512x1024, .f32⟩
  | _, _ => ⟨S16x3x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_v0 : Ref sig .tc := ⟨.hbm, 11, rfl⟩
abbrev main_c_1 : Ref sig .tc := ⟨.hbm, 12, rfl⟩
abbrev main_v1 : Ref sig .tc := ⟨.hbm, 13, rfl⟩
abbrev main_v2 : Ref sig .tc := ⟨.hbm, 14, rfl⟩
abbrev main_c_2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_c_3 : Ref sig .tc := ⟨.hbm, 22, rfl⟩
abbrev main_v9 : Ref sig .tc := ⟨.hbm, 23, rfl⟩
abbrev main_v10 : Ref sig .tc := ⟨.hbm, 24, rfl⟩
abbrev main_c_4 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 2], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x3x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x1x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x3x1x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x3x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  bcast_S_S16 : S_.BroadcastsInDim S16 (![] : Fin 0 → Fin S16.rank)
  bcast_S16_S16x1_0 : S16.BroadcastsInDim S16x1 (![0] : Fin 1 → Fin S16x1.rank)
  bcast_S16x3_S16x3x1x1_0_1 : S16x3.BroadcastsInDim S16x3x1x1 (![0, 1] : Fin 2 → Fin S16x3x1x1.rank)
  inb_S1x3x512x1024_S1x3x512x1024_0_0_0_0 : ∀ a, (![0, 0, 0, 0] : Fin 4 → Nat) a + S1x3x512x1024.size a ≤ S1x3x512x1024.size a
  h_S1x3x512x1024 : 0 < S1x3x512x1024.numel
  shapeCasts_S1x3x512x1024_S3x512x1024 : S1x3x512x1024.ShapeCasts S3x512x1024
  inb_S1x3x1x1_S1x3x1x1_0_0_0_0 : ∀ a, (![0, 0, 0, 0] : Fin 4 → Nat) a + S1x3x1x1.size a ≤ S1x3x1x1.size a
  h_S1x3x1x1 : 0 < S1x3x1x1.numel
  shapeCasts_S1x3x1x1_S3x1x1 : S1x3x1x1.ShapeCasts S3x1x1
  broadcasts_S3x1x1_S3x512x1024 : S3x1x1.Broadcasts S3x512x1024
  shapeCasts_S3x512x1024_S1x3x512x1024 : S3x512x1024.ShapeCasts S1x3x512x1024
  gather_S16x3_S16x1_S16x3_1_0_n_n_0_1_13_wf : GatherDims.WF S16x3 S16x1 S16x3 [1] [0] [] [0] [] 1 ![1, 3]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x3x512x1024.size a ≤ S16x3x1024x1024.size a
  hwx0_0 : ∀ i : grid0.Coords, EltTy.bits .f32 = 32 ∨ (Rect.block (s := S16x3x1024x1024) S1x3x512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x3x1x1.size a ≤ S16x3x1x1.size a
  hwx0_1 : ∀ i : grid0.Coords, EltTy.bits .f32 = 32 ∨ (Rect.block (s := S16x3x1x1) S1x3x1x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x3x1x1.size a ≤ S16x3x1x1.size a
  hwx0_2 : ∀ i : grid0.Coords, EltTy.bits .f32 = 32 ∨ (Rect.block (s := S16x3x1x1) S1x3x1x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x3x512x1024.size a ≤ S16x3x1024x1024.size a
  hwx0_3 : ∀ i : grid0.Coords, EltTy.bits .f32 = 32 ∨ (Rect.block (s := S16x3x1024x1024) S1x3x512x1024.size (cc0_transform_3 i) (hinb0_3 i)).WholeWords (EltTy.packing .f32)

variable [Facts₀]

def gather_S16x3_S16x1_S16x3_1_0_n_n_0_1_13 : GatherDims S16x3 S16x1 S16x3 where
  offsetDims := [1]
  collapsedSliceDims := [0]
  operandBatchingDims := []
  startIndicesBatchingDims := []
  startIndexMap := [0]
  indexVectorDim := 1
  sliceSizes := ![1, 3]
  wf := gather_S16x3_S16x1_S16x3_1_0_n_n_0_1_13_wf

abbrev win0_0 : Pipeline.Window sig grid0 :=
  Pipeline.Window.ofSpec (Memref.whole main_arg0) S1x3x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S1x3x1x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v16) S1x3x1x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v17) S1x3x512x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where
  halias0_3 : Pipeline.Aliased win0 0 3

variable [Facts]
-- ==== ReferenceIdeal.lean ====
abbrev S16x3x1024x1024 : Shape := ⟨4, ![16, 3, 1024, 1024]⟩
abbrev S16 : Shape := ⟨1, ![16]⟩
abbrev S16x3 : Shape := ⟨2, ![16, 3]⟩
abbrev S_ : Shape := ⟨0, ![]⟩
abbrev S16x1 : Shape := ⟨2, ![16, 1]⟩
abbrev S16x3x1x1 : Shape := ⟨4, ![16, 3, 1, 1]⟩

abbrev nBuf : Space → Nat
  | .hbm => 28
  | .vmem => 0
  | .smem => 0
  | _ => 0

abbrev bufTy : (tb : Table) → Fin (tcTables nBuf tb) → BufTy
  | .hbm, ⟨0, _⟩ => ⟨S16x3x1024x1024, .f32⟩
  | .hbm, ⟨1, _⟩ => ⟨S16, .i32⟩
  | .hbm, ⟨2, _⟩ => ⟨S16x3, .f32⟩
  | .hbm, ⟨3, _⟩ => ⟨S16x3, .f32⟩
  | .hbm, ⟨4, _⟩ => ⟨S_, .i32⟩
  | .hbm, ⟨5, _⟩ => ⟨S16, .i32⟩
  | .hbm, ⟨6, _⟩ => ⟨S16, .i1⟩
  | .hbm, ⟨7, _⟩ => ⟨S_, .i32⟩
  | .hbm, ⟨8, _⟩ => ⟨S16, .i32⟩
  | .hbm, ⟨9, _⟩ => ⟨S16, .i32⟩
  | .hbm, ⟨10, _⟩ => ⟨S16, .i32⟩
  | .hbm, ⟨11, _⟩ => ⟨S16x1, .i32⟩
  | .hbm, ⟨12, _⟩ => ⟨S16x3, .f32⟩
  | .hbm, ⟨13, _⟩ => ⟨S16x3x1x1, .f32⟩
  | .hbm, ⟨14, _⟩ => ⟨S_, .i32⟩
  | .hbm, ⟨15, _⟩ => ⟨S16, .i32⟩
  | .hbm, ⟨16, _⟩ => ⟨S16, .i1⟩
  | .hbm, ⟨17, _⟩ => ⟨S_, .i32⟩
  | .hbm, ⟨18, _⟩ => ⟨S16, .i32⟩
  | .hbm, ⟨19, _⟩ => ⟨S16, .i32⟩
  | .hbm, ⟨20, _⟩ => ⟨S16, .i32⟩
  | .hbm, ⟨21, _⟩ => ⟨S16x1, .i32⟩
  | .hbm, ⟨22, _⟩ => ⟨S16x3, .f32⟩
  | .hbm, ⟨23, _⟩ => ⟨S16x3x1x1, .f32⟩
  | .hbm, ⟨24, _⟩ => ⟨S16x3x1024x1024, .f32⟩
  | .hbm, ⟨25, _⟩ => ⟨S16x3x1024x1024, .f32⟩
  | .hbm, ⟨26, _⟩ => ⟨S16x3x1024x1024, .f32⟩
  | .hbm, ⟨27, _⟩ => ⟨S16x3x1024x1024, .f32⟩
  | _, _ => ⟨S16x3x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c_1 : Ref sig .tc := ⟨.hbm, 14, rfl⟩
abbrev main_v8 : Ref sig .tc := ⟨.hbm, 15, rfl⟩
abbrev main_v9 : Ref sig .tc := ⟨.hbm, 16, rfl⟩
abbrev main_c_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]

class Facts₀ : Prop where
  bcast_S_S16 : S_.BroadcastsInDim S16 (![] : Fin 0 → Fin S16.rank)
  bcast_S16_S16x1_0 : S16.BroadcastsInDim S16x1 (![0] : Fin 1 → Fin S16x1.rank)
  bcast_S16x3_S16x3x1x1_0_1 : S16x3.BroadcastsInDim S16x3x1x1 (![0, 1] : Fin 2 → Fin S16x3x1x1.rank)
  bcast_S16x3x1x1_S16x3x1024x1024_0_1_2_3 : S16x3x1x1.BroadcastsInDim S16x3x1024x1024 (![0, 1, 2, 3] : Fin 4 → Fin S16x3x1024x1024.rank)
  gather_S16x3_S16x1_S16x3_1_0_n_n_0_1_13_wf : GatherDims.WF S16x3 S16x1 S16x3 [1] [0] [] [0] [] 1 ![1, 3]

variable [Facts₀]

def gather_S16x3_S16x1_S16x3_1_0_n_n_0_1_13 : GatherDims S16x3 S16x1 S16x3 where
  offsetDims := [1]
  collapsedSliceDims := [0]
  operandBatchingDims := []
  startIndicesBatchingDims := []
  startIndexMap := [0]
  indexVectorDim := 1
  sliceSizes := ![1, 3]
  wf := gather_S16x3_S16x1_S16x3_1_0_n_n_0_1_13_wf

class Facts : Prop extends Facts₀ where

variable [Facts]
-- ==== Proof.Index.lean ====
/-
  Words that are camera numbers. A 32-bit word x whose signed value lies in [0, 16) is left alone by the two
  index adjustments the programs make before they read a row of a 16-row table:

  * the clamp into [0, 15], written min(15, max(0, x));
  * the step that moves a negative index to the end of the table: x + 16 if x < 0, else x.

  So on such words the index "clamp, then wrap" and the index "wrap" are both the word itself, and a table read
  at the one is the table read at the other. Stated first for one word, then for a vector of words against
  constant vectors of 0, 15 and 16 (however those constant vectors are spelt).
-/
import Idealize.ShloMosaic.PureOps
import Idealize.ShloMosaic.Lib.StableHlo.Predicate

namespace Cert.CamIndex

open Idealize.ShloMosaic Idealize.ShloMosaic.StableHlo.Predicate

/-- The word lies in [0, 16), said the way a printed precondition says it: the signed compares
    `x ≥ 0` and `x < 16` both come out 1. -/
def InRange (x : BitVec 32) : Prop :=
  IntOp.cmpi .sge x 0#32 = 1#1 ∧ IntOp.cmpi .slt x 16#32 = 1#1

/-- The compares read as inequalities on the word's signed value. -/
theorem InRange.bounds {x : BitVec 32} (h : InRange x) : 0 ≤ x.toInt ∧ x.toInt < 16 := by
  obtain ⟨h0, h16⟩ := h
  unfold IntOp.cmpi at h0 h16
  rw [ofBool_eq_one_iff] at h0 h16
  simp only [BitVec.sle, BitVec.slt, decide_eq_true_eq] at h0 h16
  have z : (0#32 : BitVec 32).toInt = 0 := by decide
  have s : (16#32 : BitVec 32).toInt = 16 := by decide
  rw [z] at h0
  rw [s] at h16
  exact ⟨h0, h16⟩

/-- A non-negative word is not below zero: the compare `x < 0` comes out 0, not 1. -/
theorem InRange.not_neg {x : BitVec 32} (h : InRange x) : ¬ IntOp.cmpi .slt x 0#32 = 1#1 := by
  obtain ⟨a, _⟩ := h.bounds
  have z : (0#32 : BitVec 32).toInt = 0 := by decide
  unfold IntOp.cmpi
  rw [ofBool_eq_one_iff]
  simp only [BitVec.slt, z, decide_eq_true_eq]
  omega

/-- max(0, x) = x for x ≥ 0, and then min(15, x) = x for x < 16. -/
theorem InRange.clamp {x : BitVec 32} (h : InRange x) : IntOp.minsi 15#32 (IntOp.maxsi 0#32 x) = x := by
  obtain ⟨a, b⟩ := h.bounds
  have z : (0#32 : BitVec 32).toInt = 0 := by decide
  have f : (15#32 : BitVec 32).toInt = 15 := by decide
  have hmax : IntOp.maxsi 0#32 x = x := by
    unfold IntOp.maxsi
    rw [if_neg]
    simp only [BitVec.slt, z, decide_eq_true_eq]
    omega
  rw [hmax]
  unfold IntOp.minsi
  rw [if_neg]
  simp only [BitVec.slt, f, decide_eq_true_eq]
  omega

/-- The wrap of a negative index takes its "else" branch at a non-negative word. -/
theorem InRange.wrap {x : BitVec 32} (h : InRange x) :
    Scalar.select (IntOp.cmpi .slt x 0#32) (IntOp.addi x 16#32) x = x := by
  unfold Scalar.select
  exact if_neg h.not_neg

variable {S : Shape}

/-- The clamp of a vector of camera numbers against constant vectors of 0 and 15 is the vector. -/
theorem clampVec (ci z f : IVec S 32) (hz : ∀ i, z i = 0#32) (hf : ∀ i, f i = 15#32) (hin : ∀ i, InRange (ci i)) :
    minsi f (maxsi z ci) = ci := by
  funext i
  show IntOp.minsi (f i) (IntOp.maxsi (z i) (ci i)) = ci i
  rw [hz i, hf i]
  exact (hin i).clamp

/-- The wrap of a vector of camera numbers against constant vectors of 0 and 16 is the vector. -/
theorem wrapVec (ci z s : IVec S 32) (hz : ∀ i, z i = 0#32) (hs : ∀ i, s i = 16#32) (hin : ∀ i, InRange (ci i)) :
    select (cmpi .slt ci z) (addi ci s) ci = ci := by
  funext i
  show Scalar.select (IntOp.cmpi .slt (ci i) (z i)) (IntOp.addi (ci i) (s i)) (ci i) = ci i
  rw [hz i, hs i]
  exact (hin i).wrap

end Cert.CamIndex
-- ==== Proof.Pre.lean ====
/-
  What the precondition says about the camera numbers.

  The precondition is a conjunction of five "for all entries" statements, each computed as an and-reduction of a
  vector of one-bit comparison results down to a single bit, the five bits then and-ed together: the three float
  arrays hold finite numbers, every camera number is ≥ 0, and every camera number is < 16. If the final bit is 1
  then each of the five bits is 1, and an and-reduction that comes out 1 had a 1 at every entry. Read at entry i
  of the camera vector, the last two say exactly that the word there lies in [0, 16).

  Only those two are used: the arithmetic of the two programs is the same product and the same sum in the same
  order, so nothing needs the float inputs to be finite.
-/
import proofs.«408552_j6536940224717_3_alg».proof.Defs
import proofs.«408552_j6536940224717_3_alg».proof.Proof.Gen.Pre_finite_inputs
import proofs.«408552_j6536940224717_3_alg».proof.Proof.Index
import Idealize.ShloMosaic.Lib.ReduceAll
import Idealize.ShloMosaic.Lib.Affine
import Idealize.ShloMosaic.Lib.ValueIdx

namespace Cert.Colour

open Idealize.ShloMosaic Idealize.SL.Sem Cert.Pre_finite_inputs

/-- A shape with no axes has one index. -/
instance : Subsingleton S_.Idx := ⟨fun a b => funext fun d => d.elim0⟩

/-- If the printed precondition evaluates to 1 on four arrays, every entry of the second (the camera numbers)
    lies in [0, 16). For floats of any kind: the camera numbers are words either way. -/
theorem inRange_of_fn {F : FTy → Type} [FloatOps F] (a0 : FVec F S16x3x1024x1024 .f32) (a1 : IVec S16 32)
    (a2 a3 : FVec F S16x3 .f32) (h : fn (F := F) a0 a1 a2 a3 = fun _ => 1#1) (i : S16.Idx) :
    CamIndex.InRange (a1 i) := by
  have h0 := congrFun h ValueIdx.ix0
  dsimp only [fn, fn_part1] at h0
  change IntOp.andi (IntOp.andi _ _) _ = 1#1 at h0
  obtain ⟨h17, hlt⟩ := IntOp.andi_eq_one.mp h0
  obtain ⟨_, hge⟩ := IntOp.andi_eq_one.mp h17
  exact ⟨Host.reduce_andi_all _ _ _ _ _ hge i, Host.reduce_andi_all _ _ _ _ _ hlt i⟩

/-- The idealized kernel's precondition, on any device: every camera number it is launched with lies in [0, 16). -/
theorem inRange_of_pre (m : (ℓ : Loc Cert.KernelIdeal.nD Cert.KernelIdeal.τ Cert.KernelIdeal.sig) → Buf (Elt Ideal) ℓ)
    (h : Cert.Pre_KernelIdeal m) (c : Dev Cert.KernelIdeal.nD) (i : S16.Idx) :
    CamIndex.InRange
      ((m ((c.tc : Thread Cert.KernelIdeal.nD Cert.KernelIdeal.τ).loc Cert.KernelIdeal.main_arg1) : IVec S16 32) i) :=
  inRange_of_fn _ _ _ _ (h c) i

end Cert.Colour
-- ==== Proof.KernelTables.lean ====
/-
  The two tables the kernel is handed, as functions of the program's arguments.

  Before the kernel is launched the program prepares, from the camera numbers and the two 16-row tables (scale and
  offset, three channels each), one [16, 3, 1, 1] array of scales and one of offsets: for image b it clamps the
  camera number into [0, 15], moves a negative index to the end of the table (a step that does nothing after the
  clamp, but is there), and takes that row. This module names that index vector (`kidx`) and that row lookup
  (`tableOf`) and shows that the arrays the kernel finds when it starts are exactly these, by running through the
  twenty-nine operations that come before the launch. The helper routine that does the clamp passes its values
  through retypings that change nothing, which is why the equations close by unfolding alone.
-/
import proofs.«408552_j6536940224717_3_alg».proof.Proof.Gen.KernelIdeal.Frame
import Idealize.ShloMosaic.Lib.StableHlo.Run
import Idealize.ShloMosaic.Lib.Pipeline.Value
import Idealize.ShloMosaic.PureOps.Ideal

noncomputable section

namespace Cert.KernelIdeal.Tables

open Cert.KernelIdeal Cert.KernelIdeal.Gen Idealize.ShloMosaic Idealize.ShloMosaic.TcCoe Idealize.SL.Sem Idealize.ShloMosaic.StableHlo

/-- The row index the kernel's program uses for each image: the camera number clamped into [0, 15], then a
    negative index moved to the end of the table. -/
def kidx (ci : IVec S16 32) : IVec S16 32 :=
  let k : IVec S16 32 := minsi (broadcastInDim S16 ![] bcast_S_S16 (constantI S_ 32 15#32))
    (maxsi (broadcastInDim S16 ![] bcast_S_S16 (constantI S_ 32 0#32)) ci)
  select (cmpi .slt k (broadcastInDim S16 ![] bcast_S_S16 (constantI S_ 32 0#32)))
    (addi k (broadcastInDim S16 ![] bcast_S_S16 (constantI S_ 32 16#32))) k

/-- The rows of a 16-row, 3-channel table picked by an index vector, laid out as a [16, 3, 1, 1] array. -/
def tableOf (tab : S16x3.Idx → EReal) (idx : IVec S16 32) : S16x3x1x1.Idx → EReal :=
  broadcastInDim S16x3x1x1 ![0, 1] bcast_S16x3_S16x3x1x1_0_1
    (Host.gather gather_S16x3_S16x1_S16x3_1_0_n_n_0_1_13 tab (broadcastInDim S16x1 ![0] bcast_S16_S16x1_0 idx))

variable (m : (ℓ : Loc nD τ sig) → Buf (Elt Ideal) ℓ)

set_option maxHeartbeats 2000000 in
/-- The scales the kernel finds: the scale table's rows at `kidx` of the camera numbers. -/
theorem scale_eq (c : Dev nD) :
    (V m c main_v8 : S16x3x1x1.Idx → EReal)
      = tableOf (m ((c : Thread nD τ).loc main_arg2)) (kidx (m ((c : Thread nD τ).loc main_arg1))) := by
  dsimp only [V]
  simp only [hostOps0, hostOps0_1, hostOps0_2, List.flatten_cons, List.flatten_nil, List.append_nil, List.cons_append,
    List.nil_append]
  after_results
  rfl

set_option maxHeartbeats 2000000 in
/-- The offsets the kernel finds: the offset table's rows at the same index. -/
theorem offset_eq (c : Dev nD) :
    (V m c main_v16 : S16x3x1x1.Idx → EReal)
      = tableOf (m ((c : Thread nD τ).loc main_arg3)) (kidx (m ((c : Thread nD τ).loc main_arg1))) := by
  dsimp only [V]
  simp only [hostOps0, hostOps0_1, hostOps0_2, List.flatten_cons, List.flatten_nil, List.append_nil, List.cons_append,
    List.nil_append]
  after_results
  rfl

end Cert.KernelIdeal.Tables

end
-- ==== Proof.Spec.lean ====
/-
  The one function both programs compute.

  An image batch `img` of shape [16, 3, 1024, 1024] is recoloured channel by channel: every pixel of channel c of
  image b is multiplied by a scale and shifted by an offset that depend only on (b, c). The scales and offsets
  arrive as two [16, 3, 1, 1] arrays `w4` and `b4`, so the result at (b, c, h, w) is

      img (b, c, h, w) · w4 (b, c, 0, 0) + b4 (b, c, 0, 0),

  read on the extended reals with the product taken first. No law of arithmetic is needed to compare the two
  programs: each of them forms exactly this product and this sum, in this order. They differ only in how they
  look up the row of the 16-row tables that `w4` and `b4` are cut from, which is settled elsewhere.
-/
import Idealize.ShloMosaic.PureOps.Ideal
import Idealize.ShloMosaic.Lib.ValueIdx

noncomputable section

namespace Cert.Colour

open Idealize.ShloMosaic

/-- The image batch's shape and the shape of a per-image, per-channel table. -/
abbrev Img : Shape := ⟨4, ![16, 3, 1024, 1024]⟩
abbrev Tab : Shape := ⟨4, ![16, 3, 1, 1]⟩

/-- The table entry a pixel uses: its image and channel coordinates, and 0 on the two unit axes. -/
abbrev col (i : Img.Idx) : Tab.Idx := fun a => match a with
  | ⟨0, _⟩ => ⟨(i 0).val, (i 0).isLt⟩
  | ⟨1, _⟩ => ⟨(i 1).val, (i 1).isLt⟩
  | ⟨2, _⟩ => ⟨0, Nat.one_pos⟩
  | ⟨3, _⟩ => ⟨0, Nat.one_pos⟩

/-- Scale, then shift, each pixel by its image's and channel's table entries. -/
def spec (img : Img.Idx → EReal) (w4 b4 : Tab.Idx → EReal) : Img.Idx → EReal :=
  fun i => img i * w4 (col i) + b4 (col i)

theorem spec_apply (img : Img.Idx → EReal) (w4 b4 : Tab.Idx → EReal) (i : Img.Idx) :
    spec img w4 b4 i = img i * w4 (col i) + b4 (col i) := rfl

/-- The function depends on the tables only through their values: equal tables, equal results. -/
theorem spec_congr (img : Img.Idx → EReal) {w4 w4' b4 b4' : Tab.Idx → EReal} (hw : w4 = w4') (hb : b4 = b4') :
    spec img w4 b4 = spec img w4' b4' := by
  rw [hw, hb]

end Cert.Colour

end
-- ==== Proof.KernelValue.lean ====
/-
  What the kernel leaves in its output array.

  The kernel walks a 16 × 2 grid. At point (b, h) it holds image b's three channels over rows 512h … 512h + 511
  (a [1, 3, 512, 1024] block), and that image's three scales and three offsets (two [1, 3, 1, 1] blocks); it
  multiplies each pixel by its channel's scale, adds the channel's offset, and writes the block back to the same
  place in the output array. So what point (b, h) writes back is the block at (b, 0, h, 0) of one whole-array
  function: the array of images, scaled and shifted by the [16, 3, 1, 1] arrays of scales and offsets that the
  kernel was handed. The 32 blocks tile the output array, so after the last point the array is that function
  everywhere.

  The arithmetic inside a block is already available as one expression per block index. What is shown here is
  where each operand of that expression sits in its array: the pixel of block index (0, c, r, w) at point (b, h) is
  array index (b, c, 512h + r, w); the scale and offset it meets, block index (0, c, 0, 0) of their blocks at that
  point, are array index (b, c, 0, 0) — the table entry of that pixel's image and channel.
-/
import proofs.«408552_j6536940224717_3_alg».proof.Proof.Gen.KernelIdeal.Value
import proofs.«408552_j6536940224717_3_alg».proof.Proof.Spec
import Idealize.ShloMosaic.PureOps.Ideal

noncomputable section

namespace Cert.KernelIdeal.Recolour

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

theorem hz : (![0, 0, 0, 0] : Fin 4 → Nat) = fun _ => 0 := funext fun a => by fin_cases a <;> rfl

/-- The three arrays the kernel reads, as the region finds them, each at its plain type: the images, and the
    [16, 3, 1, 1] arrays of scales and of offsets. -/
abbrev img (c : Dev nD) : S16x3x1024x1024.Idx → EReal := V m c main_arg0
abbrev scales (c : Dev nD) : S16x3x1x1.Idx → EReal := V m c main_v8
abbrev offsets (c : Dev nD) : S16x3x1x1.Idx → EReal := V m c main_v16

/-- The whole-array function: the images the region finds, scaled and shifted by the two tables it finds. -/
def G (c : Dev nD) : S16x3x1024x1024.Idx → EReal :=
  Cert.Colour.spec (img m c) (scales m c) (offsets m c)

/-- How the four windows' block positions are related, at every grid point: the image window sits where the output
    window sits; the two table windows sit at the same image and at 0 on the other axes; and the output window's
    position is (b, 0, h, 0) with b ≤ 15 and h ≤ 1. -/
theorem idx_facts : ∀ t : Fin cfg0.N,
    win0_0.index t (0 : Fin 4) = win0_3.index t (0 : Fin 4) ∧ win0_0.index t (1 : Fin 4) = win0_3.index t (1 : Fin 4)
    ∧ win0_0.index t (2 : Fin 4) = win0_3.index t (2 : Fin 4) ∧ win0_0.index t (3 : Fin 4) = win0_3.index t (3 : Fin 4)
    ∧ win0_1.index t (0 : Fin 4) = win0_3.index t (0 : Fin 4) ∧ win0_1.index t (1 : Fin 4) = 0
    ∧ win0_1.index t (2 : Fin 4) = 0 ∧ win0_1.index t (3 : Fin 4) = 0
    ∧ win0_2.index t (0 : Fin 4) = win0_3.index t (0 : Fin 4) ∧ win0_2.index t (1 : Fin 4) = 0
    ∧ win0_2.index t (2 : Fin 4) = 0 ∧ win0_2.index t (3 : Fin 4) = 0
    ∧ win0_3.index t (0 : Fin 4) ≤ 15 ∧ win0_3.index t (1 : Fin 4) = 0
    ∧ win0_3.index t (2 : Fin 4) ≤ 1 ∧ win0_3.index t (3 : Fin 4) = 0 :=
  (by decide +kernel : ∀ t : Fin grid0.N, _)

/-- Every block position (b, 0, h, 0) with b < 16 and h < 2 is some grid point's. -/
theorem idx_onto : ∀ (q0 : Fin 16) (q2 : Fin 2), ∃ t : Fin cfg0.N, win0_3.index t = ![q0.val, 0, q2.val, 0] :=
  (by decide +kernel : ∀ (q0 : Fin 16) (q2 : Fin 2), ∃ t : Fin grid0.N, win0_3.index t = ![q0.val, 0, q2.val, 0])

/-- What point `t` writes back is block `t` of the whole-array function. -/
theorem flushed_eq (c : Dev nD) (t : Fin cfg0.N) :
    (dats m 0 c).flushed 3 t = ((cfg0.win 3).blk t).view.read (Elt Ideal) (G m c) := by
  rw [Value.flushed3]
  funext j
  show out0_3 (iblk m c 0 t) (iblk m c 1 t) (iblk m c 2 t) j = G m c (((cfg0.win 3).blk t).view.emb j)
  unfold out0_3
  refine (Value.canon3_eq _ _ _ j).trans ?_
  simp only [View.ld_unit_zero (S := S1x3x512x1024) hz, View.ld_unit_zero (S := S1x3x1x1) hz]
  obtain ⟨a0, a1, a2, a3, b0, b1, b2, b3, d0, d1, d2, d3, e0, e1, e2, e3⟩ := idx_facts t
  have hj0 : (j 0).val < 1 := (j 0).isLt
  have hj1 : (j 1).val < 3 := (j 1).isLt
  have hj2 : (j 2).val < 512 := (j 2).isLt
  have hj3 : (j 3).val < 1024 := (j 3).isLt
  -- the pixel: block index (0, c, r, w) of the image window is where block index j of the output window is
  have h0 : ((cfg0.win 0).blk t).view.emb (Value.ix3_0 j) = ((cfg0.win 3).blk t).view.emb j := by
    funext a; apply Fin.ext
    match a with
    | ⟨0, _⟩ => show win0_0.index t (0 : Fin 4) * 1 + 1 * 0 = win0_3.index t (0 : Fin 4) * 1 + 1 * (j 0).val; omega
    | ⟨1, _⟩ => show win0_0.index t (1 : Fin 4) * 3 + 1 * (j 1).val = win0_3.index t (1 : Fin 4) * 3 + 1 * (j 1).val; omega
    | ⟨2, _⟩ => show win0_0.index t (2 : Fin 4) * 512 + 1 * (j 2).val = win0_3.index t (2 : Fin 4) * 512 + 1 * (j 2).val; omega
    | ⟨3, _⟩ => show win0_0.index t (3 : Fin 4) * 1024 + 1 * (j 3).val = win0_3.index t (3 : Fin 4) * 1024 + 1 * (j 3).val; omega
  -- the scale: block index (0, c, 0, 0) of its window is the table entry of that array index
  have h1 : ((cfg0.win 1).blk t).view.emb (Value.ix3_1 j) = Cert.Colour.col (((cfg0.win 3).blk t).view.emb j) := by
    funext a; apply Fin.ext
    match a with
    | ⟨0, _⟩ => show win0_1.index t (0 : Fin 4) * 1 + 1 * 0 = win0_3.index t (0 : Fin 4) * 1 + 1 * (j 0).val; omega
    | ⟨1, _⟩ => show win0_1.index t (1 : Fin 4) * 3 + 1 * (j 1).val = win0_3.index t (1 : Fin 4) * 3 + 1 * (j 1).val; omega
    | ⟨2, _⟩ => show win0_1.index t (2 : Fin 4) * 1 + 1 * 0 = 0; omega
    | ⟨3, _⟩ => show win0_1.index t (3 : Fin 4) * 1 + 1 * 0 = 0; omega
  -- the offset: likewise
  have h2 : ((cfg0.win 2).blk t).view.emb (Value.ix3_2 j) = Cert.Colour.col (((cfg0.win 3).blk t).view.emb j) := by
    funext a; apply Fin.ext
    match a with
    | ⟨0, _⟩ => show win0_2.index t (0 : Fin 4) * 1 + 1 * 0 = win0_3.index t (0 : Fin 4) * 1 + 1 * (j 0).val; omega
    | ⟨1, _⟩ => show win0_2.index t (1 : Fin 4) * 3 + 1 * (j 1).val = win0_3.index t (1 : Fin 4) * 3 + 1 * (j 1).val; omega
    | ⟨2, _⟩ => show win0_2.index t (2 : Fin 4) * 1 + 1 * 0 = 0; omega
    | ⟨3, _⟩ => show win0_2.index t (3 : Fin 4) * 1 + 1 * 0 = 0; omega
  show img m c (((cfg0.win 0).blk t).view.emb (Value.ix3_0 j))
        * scales m c (((cfg0.win 1).blk t).view.emb (Value.ix3_1 j))
      + offsets m c (((cfg0.win 2).blk t).view.emb (Value.ix3_2 j))
    = img m c (((cfg0.win 3).blk t).view.emb j)
        * scales m c (Cert.Colour.col (((cfg0.win 3).blk t).view.emb j))
      + offsets m c (Cert.Colour.col (((cfg0.win 3).blk t).view.emb j))
  rw [h0, h1, h2]

/-- An array index is in point `t`'s block iff each coordinate is in the block's range on its axis. -/
theorem mem_blk (t : Fin cfg0.N) (i : S16x3x1024x1024.Idx) :
    i ∈ ((cfg0.win 3).blk t).view.set ↔ ∀ a : Fin 4, win0_3.index t a * S1x3x512x1024.size a ≤ (i a).val
      ∧ (i a).val < win0_3.index t a * S1x3x512x1024.size a + S1x3x512x1024.size a := by
  show i ∈ ((View.whole main_v17).slice (win0_3.rect t)).set ↔ _
  rw [View.set_slice_whole, Rect.mem_set_unit]
  exact Iff.rfl

/-- Every array index is in some point's block: index (b, c, r, w) in the block at (b, 0, r / 512, 0). -/
theorem cover (i : S16x3x1024x1024.Idx) :
    ∃ t : Fin cfg0.N, (cfg0.win 3).flush t = true ∧ i ∈ ((cfg0.win 3).blk t).view.set := by
  have hi0 : (i 0).val < 16 := (i 0).isLt
  have hi1 : (i 1).val < 3 := (i 1).isLt
  have hi2 : (i 2).val < 1024 := (i 2).isLt
  have hi3 : (i 3).val < 1024 := (i 3).isLt
  obtain ⟨t, ht⟩ := idx_onto ⟨(i 0).val, hi0⟩ ⟨(i 2).val / 512, by omega⟩
  have q0 : win0_3.index t (0 : Fin 4) = (i 0).val := congrFun ht 0
  have q1 : win0_3.index t (1 : Fin 4) = 0 := congrFun ht 1
  have q2 : win0_3.index t (2 : Fin 4) = (i 2).val / 512 := congrFun ht 2
  have q3 : win0_3.index t (3 : Fin 4) = 0 := congrFun ht 3
  refine ⟨t, flush0_3 t, ?_⟩
  rw [mem_blk]
  intro a
  match a with
  | ⟨0, _⟩ => show win0_3.index t (0 : Fin 4) * 1 ≤ (i 0).val ∧ (i 0).val < win0_3.index t (0 : Fin 4) * 1 + 1; omega
  | ⟨1, _⟩ => show win0_3.index t (1 : Fin 4) * 3 ≤ (i 1).val ∧ (i 1).val < win0_3.index t (1 : Fin 4) * 3 + 3; omega
  | ⟨2, _⟩ => show win0_3.index t (2 : Fin 4) * 512 ≤ (i 2).val ∧ (i 2).val < win0_3.index t (2 : Fin 4) * 512 + 512; omega
  | ⟨3, _⟩ => show win0_3.index t (3 : Fin 4) * 1024 ≤ (i 3).val ∧ (i 3).val < win0_3.index t (3 : Fin 4) * 1024 + 1024; omega

/-- The output array after the run is the whole-array function. -/
theorem final (c : Dev nD) : (dats m 0 c).arrAt 3 cfg0.N = G m c :=
  (dats m 0 c).arrAt_eq_of_cover 3 (G m c) (fun t _ => flushed_eq m c t) cover

/-- The kernel's run: it ends, nothing faults, the result array holds the whole-array function and the four
    argument arrays are as they were. -/
theorem run : θ_run defs (onTc (τ := τ) (main (F := Ideal))) ⟨m, fun _ => 0, ρ⟩ fun r => ∀ c : Dev nD,
      r.2.mem ((c : Thread nD τ).loc main_v17) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.Recolour

end
-- ==== Proof.RefValue.lean ====
/-
  What the reference computes, as the same whole-array function.

  The reference looks up each image's row of the scale table and of the offset table, lays the rows out as
  [16, 3, 1, 1] arrays, stretches them over the 1024 × 1024 pixels, multiplies the images by the stretched scales and
  adds the stretched offsets. Read at a pixel (b, c, h, w), stretching picks entry (b, c, 0, 0); so the result is
  the images scaled and shifted by the reference's own two tables — the function `Colour.spec` at those tables.
  The row lookup itself is not opened here: only which entry of the looked-up table each pixel meets.
-/
import proofs.«408552_j6536940224717_3_alg».proof.Proof.Gen.ReferenceIdeal.Read
import proofs.«408552_j6536940224717_3_alg».proof.Proof.Spec
import Idealize.ShloMosaic.PureOps.Ideal

noncomputable section

namespace Cert.ReferenceIdeal.Recolour

open Cert.ReferenceIdeal Cert.ReferenceIdeal.Gen Cert.ReferenceIdeal.Read Idealize.ShloMosaic

/-- The reference's result, from its arguments: images `x0`, camera numbers `x1`, scale table `x2`, offset table `x3`. -/
theorem result_eq_spec (x0 : S16x3x1024x1024.Idx → EReal) (x1 : IVec S16 32) (x2 x3 : S16x3.Idx → EReal) :
    val_main_v19 (F := Ideal) x0 x1 x2 x3
      = Cert.Colour.spec x0 (val_main_v7 (F := Ideal) x1 x2) (val_main_v15 (F := Ideal) x1 x3) := by
  funext i
  rw [val_main_v19_apply, val_main_v17_apply, val_main_v16_apply, val_main_v18_apply]
  rfl

end Cert.ReferenceIdeal.Recolour

end
-- ==== Proof.Bridge.lean ====
/-
  The two programs look up the same rows.

  Given camera numbers that all lie in [0, 16), the row index the kernel's program computes (clamp into [0, 15],
  then move a negative index to the table's end) and the row index the reference computes (move a negative index
  to the table's end) are both the camera numbers themselves: the clamp and the move each leave such a word alone.
  A table read at equal index vectors gives equal rows, so the [16, 3, 1, 1] array of scales the kernel is handed is
  the one the reference builds, and likewise the offsets. How a row lookup treats an index outside the table never
  comes into it.

  Outside [0, 16) this fails, and with it the claim: at camera number -1 the kernel's program reads row 0 (the
  clamp), the reference row 15 (the move to the end).
-/
import proofs.«408552_j6536940224717_3_alg».proof.Proof.KernelTables
import proofs.«408552_j6536940224717_3_alg».proof.Proof.Gen.ReferenceIdeal.Read
import proofs.«408552_j6536940224717_3_alg».proof.Proof.Index
import Idealize.ShloMosaic.PureOps.Ideal

noncomputable section

namespace Cert.Colour.Bridge

open Idealize.ShloMosaic

/-- The vector of sixteen camera numbers, at the one shape both programs give it. -/
abbrev Cams : Type := IVec (⟨1, ![16]⟩ : Shape) 32

/-- The kernel's row index is the camera numbers. -/
theorem kidx_eq (ci : Cams) (h : ∀ i, Cert.CamIndex.InRange (ci i)) : Cert.KernelIdeal.Tables.kidx ci = ci := by
  unfold Cert.KernelIdeal.Tables.kidx
  dsimp only
  have hclamp : minsi (broadcastInDim Cert.KernelIdeal.S16 ![] Cert.KernelIdeal.Gen.bcast_S_S16 (constantI Cert.KernelIdeal.S_ 32 15#32))
      (maxsi (broadcastInDim Cert.KernelIdeal.S16 ![] Cert.KernelIdeal.Gen.bcast_S_S16 (constantI Cert.KernelIdeal.S_ 32 0#32)) ci) = ci :=
    Cert.CamIndex.clampVec ci _ _ (fun _ => rfl) (fun _ => rfl) h
  rw [hclamp]
  exact Cert.CamIndex.wrapVec ci _ _ (fun _ => rfl) (fun _ => rfl) h

/-- The reference's row index for the scales is the camera numbers. -/
theorem ridx_scale_eq (ci : Cams) (h : ∀ i, Cert.CamIndex.InRange (ci i)) :
    Cert.ReferenceIdeal.Read.val_main_v4 (F := Ideal) ci = ci := by
  unfold Cert.ReferenceIdeal.Read.val_main_v4 Cert.ReferenceIdeal.Read.val_main_v1 Cert.ReferenceIdeal.Read.val_main_v3
  exact Cert.CamIndex.wrapVec ci _ _ (fun _ => rfl) (fun _ => rfl) h

/-- The reference's row index for the offsets is the camera numbers. -/
theorem ridx_offset_eq (ci : Cams) (h : ∀ i, Cert.CamIndex.InRange (ci i)) :
    Cert.ReferenceIdeal.Read.val_main_v12 (F := Ideal) ci = ci := by
  unfold Cert.ReferenceIdeal.Read.val_main_v12 Cert.ReferenceIdeal.Read.val_main_v9 Cert.ReferenceIdeal.Read.val_main_v11
  exact Cert.CamIndex.wrapVec ci _ _ (fun _ => rfl) (fun _ => rfl) h

/-- The scales the kernel is handed are the reference's. -/
theorem scales_agree (ci : Cams) (tab : (⟨2, ![16, 3]⟩ : Shape).Idx → EReal) (h : ∀ i, Cert.CamIndex.InRange (ci i)) :
    Cert.KernelIdeal.Tables.tableOf tab (Cert.KernelIdeal.Tables.kidx ci)
      = Cert.ReferenceIdeal.Read.val_main_v7 (F := Ideal) ci tab := by
  rw [kidx_eq ci h]
  unfold Cert.ReferenceIdeal.Read.val_main_v7 Cert.ReferenceIdeal.Read.val_main_v6 Cert.ReferenceIdeal.Read.val_main_v5
  rw [ridx_scale_eq ci h]
  rfl

/-- The offsets the kernel is handed are the reference's. -/
theorem offsets_agree (ci : Cams) (tab : (⟨2, ![16, 3]⟩ : Shape).Idx → EReal) (h : ∀ i, Cert.CamIndex.InRange (ci i)) :
    Cert.KernelIdeal.Tables.tableOf tab (Cert.KernelIdeal.Tables.kidx ci)
      = Cert.ReferenceIdeal.Read.val_main_v15 (F := Ideal) ci tab := by
  rw [kidx_eq ci h]
  unfold Cert.ReferenceIdeal.Read.val_main_v15 Cert.ReferenceIdeal.Read.val_main_v14 Cert.ReferenceIdeal.Read.val_main_v13
  rw [ridx_offset_eq ci h]
  rfl

end Cert.Colour.Bridge

end
-- ==== Proof.lean ====
/-
  A per-camera colour correction of a batch of images: out (b, c, h, w) = image (b, c, h, w) · weight (k b, c) + bias (k b, c),
  where k b is the camera that took image b, a row of two 16-row tables.

  The kernel's program and the reference differ in one place only, the row they read for a camera number x:
  the kernel's program clamps x into [0, 15] first and then, like the reference, moves a negative index to the
  table's end (x + 16). For x in [0, 16) both steps do nothing and both programs read row x. For x in [-15, -1] they
  read different rows (row 0 against row x + 16), so the claim needs the camera numbers in range; the precondition
  says so, and that is the only part of it used. With equal rows, both programs form the same product and the same
  sum, in the same order, at every pixel: no law of arithmetic on the extended reals is called on, and so nothing
  needs the images or the tables to be finite.

  The pieces: the kernel's output array is one whole-array function of the images and of the two [16, 3, 1, 1]
  tables it is handed (each grid point writes its block of that function, and the blocks tile the array); those
  tables are the rows at the clamped-and-moved index; the reference's result is the same whole-array function at
  its own tables, the rows at the moved index; and under the precondition the two index vectors are equal.
-/
import proofs.«408552_j6536940224717_3_alg».proof.Defs
import proofs.«408552_j6536940224717_3_alg».proof.Proof.Gen.Kernel
import proofs.«408552_j6536940224717_3_alg».proof.Proof.Gen.Kernel.Skeleton
import proofs.«408552_j6536940224717_3_alg».proof.Proof.Gen.Kernel.Launch
import proofs.«408552_j6536940224717_3_alg».proof.Proof.Gen.Kernel.Points
import proofs.«408552_j6536940224717_3_alg».proof.Proof.Gen.Kernel.Frame
import proofs.«408552_j6536940224717_3_alg».proof.Proof.Gen.KernelIdeal
import proofs.«408552_j6536940224717_3_alg».proof.Proof.Gen.KernelIdeal.Skeleton
import proofs.«408552_j6536940224717_3_alg».proof.Proof.Gen.KernelIdeal.Launch
import proofs.«408552_j6536940224717_3_alg».proof.Proof.Gen.KernelIdeal.Points
import proofs.«408552_j6536940224717_3_alg».proof.Proof.Gen.KernelIdeal.Frame
import proofs.«408552_j6536940224717_3_alg».proof.Proof.Gen.ReferenceIdeal
import proofs.«408552_j6536940224717_3_alg».proof.Proof.Gen.Pre_finite_inputs
import proofs.«408552_j6536940224717_3_alg».proof.Proof.Gen.KernelIdeal.Value
import proofs.«408552_j6536940224717_3_alg».proof.Proof.Gen.ReferenceIdeal.Run
import proofs.«408552_j6536940224717_3_alg».proof.Proof.Gen.ReferenceIdeal.Read
import proofs.«408552_j6536940224717_3_alg».proof.Proof.Pre
import proofs.«408552_j6536940224717_3_alg».proof.Proof.KernelTables
import proofs.«408552_j6536940224717_3_alg».proof.Proof.KernelValue
import proofs.«408552_j6536940224717_3_alg».proof.Proof.RefValue
import proofs.«408552_j6536940224717_3_alg».proof.Proof.Bridge
import Idealize.ShloMosaic.Adequacy
import Idealize.ShloMosaic.Init

noncomputable section

namespace Cert.Proof

open Idealize.ShloMosaic Idealize.SL.Sem Cert.Kernel

/-- The kernel's program as printed runs and leaves its arguments alone. -/
theorem frame_k : Cert.frame_Kernel := fun m ρ _ => Cert.Kernel.Gen.frame m ρ

/-- The same program read on the extended reals runs and leaves its arguments alone. -/
theorem frame_ki : Cert.frame_KernelIdeal := fun m ρ _ => Cert.KernelIdeal.Gen.frame m ρ

/-- The reference runs and leaves its arguments alone: its run, with what it says of the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Reading the kernel's program on the extended reals rewrote none of its operations: nothing to preserve. -/
theorem preserves : Cert.preserves_Kernel_KernelIdeal := trivial

/-- From memories that agree on the four arguments, with the camera numbers in range, both programs end with the
    same result array: the images scaled and shifted by the rows of the two tables at the camera numbers. -/
theorem algebraic : Cert.algebraic_KernelIdeal_ReferenceIdeal := by
  intro m ρ m' ρ' hpre hagree
  refine ⟨fun c => Cert.KernelIdeal.Recolour.G m c, Cert.KernelIdeal.Recolour.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3⟩ := hagree c
  rw [h0, h1, h2, h3]
  -- the reference's result is the whole-array function at the reference's own tables
  refine (Cert.ReferenceIdeal.Read.val_main_v19_eq (F := Ideal) _ _ _ _).trans ?_
  rw [Cert.ReferenceIdeal.Recolour.result_eq_spec]
  -- the kernel's is the same function at the tables it was handed, which are rows of the argument tables
  have hin := fun i => Cert.Colour.inRange_of_pre m hpre c i
  show _ = Cert.Colour.spec (Cert.KernelIdeal.Gen.V m c Cert.KernelIdeal.main_arg0)
    (Cert.KernelIdeal.Gen.V m c Cert.KernelIdeal.main_v8) (Cert.KernelIdeal.Gen.V m c Cert.KernelIdeal.main_v16)
  rw [Cert.KernelIdeal.Gen.V_main_arg0, Cert.KernelIdeal.Tables.scale_eq, Cert.KernelIdeal.Tables.offset_eq]
  -- and in range, the two programs' rows are the same rows
  exact (Cert.Colour.spec_congr _ (Cert.Colour.Bridge.scales_agree _ _ hin)
    (Cert.Colour.Bridge.offsets_agree _ _ hin)).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
